-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S27x128x128 : Shape := ⟨3, ![27, 128, 128]⟩
abbrev S27x24576 : Shape := ⟨2, ![27, 24576]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S27x128x128 : S_.BroadcastsInDim S27x128x128 (![] : Fin 0 → Fin S27x128x128.rank)
  reducesTo_S27x128x128_S_d0_1_2 : S27x128x128.ReducesTo [0, 1, 2] S_

variable [Facts]

def fn {F : FTy → Type} [FloatOps F] (main_arg0 : FVec F S65536x128 .f32) (main_arg1 : FVec F S27x128x128 .f32) (main_arg2 : IVec S27x24576 32) (main_arg3 : IVec S27x24576 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S27x128x128 .f32 := Host.absf main_arg1
  let main_cst_0 : FVec F S_ .f32 := constant S_ .f32 0x7F800000#32
  let main_v5 : FVec F S27x128x128 .f32 := broadcastInDim S27x128x128 ![] bcast_S_S27x128x128 main_cst_0
  let main_v6 : IVec S27x128x128 1 := cmpf .olt main_v4 main_v5
  let main_c_1 : IVec S_ 1 := constantI S_ 1 1#1
  let main_v7 : IVec S_ 1 := (fun x v => Host.reduce IntOp.andi x v reducesTo_S27x128x128_S_d0_1_2 h_S_) main_v6 main_c_1
  let main_v8 : IVec S_ 1 := andi main_v3 main_v7
  main_v8
-- ==== Kernel.lean ====
abbrev S65536x128 : Shape := ⟨2, ![65536, 128]⟩
abbrev S27x128x128 : Shape := ⟨3, ![27, 128, 128]⟩
abbrev S27x24576 : Shape := ⟨2, ![27, 24576]⟩
abbrev S_ : Shape := ⟨0, ![]⟩
abbrev S27x24576x1 : Shape := ⟨3, ![27, 24576, 1]⟩
abbrev S27x24576x128 : Shape := ⟨3, ![27, 24576, 128]⟩
abbrev S1x24576x128 : Shape := ⟨3, ![1, 24576, 128]⟩
abbrev S1x128x128 : Shape := ⟨3, ![1, 128, 128]⟩
abbrev S24576x128 : Shape := ⟨2, ![24576, 128]⟩
abbrev S128x128 : Shape := ⟨2, ![128, 128]⟩

abbrev nBuf : Space → Nat
  | .hbm => 27
  | .vmem => 6
  | .smem => 0
  | _ => 0

abbrev bufTy : (tb : Table) → Fin (tcTables nBuf tb) → BufTy
  | .hbm, ⟨0, _⟩ => ⟨S65536x128, .f32⟩
  | .hbm, ⟨1, _⟩ => ⟨S27x128x128, .f32⟩
  | .hbm, ⟨2, _⟩ => ⟨S27x24576, .i32⟩
  | .hbm, ⟨3, _⟩ => ⟨S27x24576, .i32⟩
  | .hbm, ⟨4, _⟩ => ⟨S_, .i32⟩
  | .hbm, ⟨5, _⟩ => ⟨S27x24576, .i32⟩
  | .hbm, ⟨6, _⟩ => ⟨S27x24576, .i1⟩
  | .hbm, ⟨7, _⟩ => ⟨S_, .i32⟩
  | .hbm, ⟨8, _⟩ => ⟨S27x24576, .i32⟩
  | .hbm, ⟨9, _⟩ => ⟨S27x24576, .i32⟩
  | .hbm, ⟨10, _⟩ => ⟨S27x24576, .i32⟩
  | .hbm, ⟨11, _⟩ => ⟨S27x24576x1, .i32⟩
  | .hbm, ⟨12, _⟩ => ⟨S27x24576x128, .f32⟩
  | .hbm, ⟨13, _⟩ => ⟨S27x24576x128, .bf16⟩
  | .hbm, ⟨14, _⟩ => ⟨S27x128x128, .bf16⟩
  | .hbm, ⟨15, _⟩ => ⟨S27x24576x128, .f32⟩
  | .hbm, ⟨16, _⟩ => ⟨S_, .f32⟩
  | .hbm, ⟨17, _⟩ => ⟨S65536x128, .f32⟩
  | .hbm, ⟨18, _⟩ => ⟨S_, .i32⟩
  | .hbm, ⟨19, _⟩ => ⟨S27x24576, .i32⟩
  | .hbm, ⟨20, _⟩ => ⟨S27x24576, .i1⟩
  | .hbm, ⟨21, _⟩ => ⟨S_, .i32⟩
  | .hbm, ⟨22, _⟩ => ⟨S27x24576, .i32⟩
  | .hbm, ⟨23, _⟩ => ⟨S27x24576, .i32⟩
  | .hbm, ⟨24, _⟩ => ⟨S27x24576, .i32⟩
  | .hbm, ⟨25, _⟩ => ⟨S27x24576x1, .i32⟩
  | .hbm, ⟨26, _⟩ => ⟨S65536x128, .f32⟩
  | .local _ .vmem, ⟨0, _⟩ => ⟨S1x24576x128, .bf16⟩
  | .local _ .vmem, ⟨1, _⟩ => ⟨S1x24576x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x24576x128, .f32⟩
  | .local _ .vmem, ⟨5, _⟩ => ⟨S1x24576x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x24576x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24576x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S27x24576 : S_.BroadcastsInDim S27x24576 (![] : Fin 0 → Fin S27x24576.rank)
  bcast_S27x24576_S27x24576x1_0_1 : S27x24576.BroadcastsInDim S27x24576x1 (![0, 1] : Fin 2 → Fin S27x24576x1.rank)
  bitsLt_bf16_f32 : FTy.bits .bf16 < FTy.bits .f32
  inb_S1x24576x128_S1x24576x128_0_0_0 : ∀ a, (![0, 0, 0] : Fin 3 → Nat) a + S1x24576x128.size a ≤ S1x24576x128.size a
  h_S1x24576x128 : 0 < S1x24576x128.numel
  shapeCasts_S1x24576x128_S24576x128 : S1x24576x128.ShapeCasts S24576x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S24576x128_S1x24576x128 : S24576x128.ShapeCasts S1x24576x128
  bcast_S_S65536x128 : S_.BroadcastsInDim S65536x128 (![] : Fin 0 → Fin S65536x128.rank)
  gather_S65536x128_S27x24576x1_S27x24576x128_2_0_n_n_0_2_1128_wf : GatherDims.WF S65536x128 S27x24576x1 S27x24576x128 [2] [0] [] [0] [] 2 ![1, 128]
  dot_S24576x128_S128x128_S24576x128_1_0_0_1_n_n_wf : DotDims.WF S24576x128 S128x128 S24576x128 [1] [0] [0] [1] [] []
  scatter_S65536x128_S27x24576x1_S27x24576x128_2_0_0_2_wf : ScatterDims.WF S65536x128 S27x24576x1 S27x24576x128 [2] [0] [0] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x24576x128.size a ≤ S27x24576x128.size a
  hwx0_0 : ∀ i : grid0.Coords, EltTy.bits .bf16 = 32 ∨ (Rect.block (s := S27x24576x128) S1x24576x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S27x128x128.size a
  hwx0_1 : ∀ i : grid0.Coords, EltTy.bits .bf16 = 32 ∨ (Rect.block (s := S27x128x128) S1x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x24576x128.size a ≤ S27x24576x128.size a
  hwx0_2 : ∀ i : grid0.Coords, EltTy.bits .f32 = 32 ∨ (Rect.block (s := S27x24576x128) S1x24576x128.size (cc0_transform_2 i) (hinb0_2 i)).WholeWords (EltTy.packing .f32)

variable [Facts₀]

def gather_S65536x128_S27x24576x1_S27x24576x128_2_0_n_n_0_2_1128 : GatherDims S65536x128 S27x24576x1 S27x24576x128 where
  offsetDims := [2]
  collapsedSliceDims := [0]
  operandBatchingDims := []
  startIndicesBatchingDims := []
  startIndexMap := [0]
  indexVectorDim := 2
  sliceSizes := ![1, 128]
  wf := gather_S65536x128_S27x24576x1_S27x24576x128_2_0_n_n_0_2_1128_wf
def dot_S24576x128_S128x128_S24576x128_1_0_0_1_n_n : DotDims S24576x128 S128x128 S24576x128 where
  lhsContracting := [1]
  rhsContracting := [0]
  lhsNonContracting := [0]
  rhsNonContracting := [1]
  lhsBatch := []
  rhsBatch := []
  wf := dot_S24576x128_S128x128_S24576x128_1_0_0_1_n_n_wf
def scatter_S65536x128_S27x24576x1_S27x24576x128_2_0_0_2 : ScatterDims S65536x128 S27x24576x1 S27x24576x128 where
  updateWindowDims := [2]
  insertedWindowDims := [0]
  scatterDimsToOperandDims := [0]
  indexVectorDim := 2
  wf := scatter_S65536x128_S27x24576x1_S27x24576x128_2_0_0_2_wf

abbrev win0_0 : Pipeline.Window sig grid0 :=
  Pipeline.Window.ofSpec (Memref.whole main_v7) S1x24576x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x24576x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x128 : Shape := ⟨2, ![65536, 128]⟩
abbrev S27x128x128 : Shape := ⟨3, ![27, 128, 128]⟩
abbrev S27x24576 : Shape := ⟨2, ![27, 24576]⟩
abbrev S_ : Shape := ⟨0, ![]⟩
abbrev S27x24576x1 : Shape := ⟨3, ![27, 24576, 1]⟩
abbrev S27x24576x128 : Shape := ⟨3, ![27, 24576, 128]⟩

abbrev nBuf : Space → Nat
  | .hbm => 25
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S27x128x128, .f32⟩
  | .hbm, ⟨2, _⟩ => ⟨S27x24576, .i32⟩
  | .hbm, ⟨3, _⟩ => ⟨S27x24576, .i32⟩
  | .hbm, ⟨4, _⟩ => ⟨S_, .i32⟩
  | .hbm, ⟨5, _⟩ => ⟨S27x24576, .i32⟩
  | .hbm, ⟨6, _⟩ => ⟨S27x24576, .i1⟩
  | .hbm, ⟨7, _⟩ => ⟨S_, .i32⟩
  | .hbm, ⟨8, _⟩ => ⟨S27x24576, .i32⟩
  | .hbm, ⟨9, _⟩ => ⟨S27x24576, .i32⟩
  | .hbm, ⟨10, _⟩ => ⟨S27x24576, .i32⟩
  | .hbm, ⟨11, _⟩ => ⟨S27x24576x1, .i32⟩
  | .hbm, ⟨12, _⟩ => ⟨S27x24576x128, .f32⟩
  | .hbm, ⟨13, _⟩ => ⟨S27x24576x128, .f32⟩
  | .hbm, ⟨14, _⟩ => ⟨S_, .f32⟩
  | .hbm, ⟨15, _⟩ => ⟨S65536x128, .f32⟩
  | .hbm, ⟨16, _⟩ => ⟨S_, .i32⟩
  | .hbm, ⟨17, _⟩ => ⟨S27x24576, .i32⟩
  | .hbm, ⟨18, _⟩ => ⟨S27x24576, .i1⟩
  | .hbm, ⟨19, _⟩ => ⟨S_, .i32⟩
  | .hbm, ⟨20, _⟩ => ⟨S27x24576, .i32⟩
  | .hbm, ⟨21, _⟩ => ⟨S27x24576, .i32⟩
  | .hbm, ⟨22, _⟩ => ⟨S27x24576, .i32⟩
  | .hbm, ⟨23, _⟩ => ⟨S27x24576x1, .i32⟩
  | .hbm, ⟨24, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S27x24576 : S_.BroadcastsInDim S27x24576 (![] : Fin 0 → Fin S27x24576.rank)
  bcast_S27x24576_S27x24576x1_0_1 : S27x24576.BroadcastsInDim S27x24576x1 (![0, 1] : Fin 2 → Fin S27x24576x1.rank)
  bcast_S_S65536x128 : S_.BroadcastsInDim S65536x128 (![] : Fin 0 → Fin S65536x128.rank)
  gather_S65536x128_S27x24576x1_S27x24576x128_2_0_n_n_0_2_1128_wf : GatherDims.WF S65536x128 S27x24576x1 S27x24576x128 [2] [0] [] [0] [] 2 ![1, 128]
  dot_S27x24576x128_S27x128x128_S27x24576x128_2_1_1_2_0_0_wf : DotDims.WF S27x24576x128 S27x128x128 S27x24576x128 [2] [1] [1] [2] [0] [0]
  scatter_S65536x128_S27x24576x1_S27x24576x128_2_0_0_2_wf : ScatterDims.WF S65536x128 S27x24576x1 S27x24576x128 [2] [0] [0] 2

variable [Facts₀]

def gather_S65536x128_S27x24576x1_S27x24576x128_2_0_n_n_0_2_1128 : GatherDims S65536x128 S27x24576x1 S27x24576x128 where
  offsetDims := [2]
  collapsedSliceDims := [0]
  operandBatchingDims := []
  startIndicesBatchingDims := []
  startIndexMap := [0]
  indexVectorDim := 2
  sliceSizes := ![1, 128]
  wf := gather_S65536x128_S27x24576x1_S27x24576x128_2_0_n_n_0_2_1128_wf
def dot_S27x24576x128_S27x128x128_S27x24576x128_2_1_1_2_0_0 : DotDims S27x24576x128 S27x128x128 S27x24576x128 where
  lhsContracting := [2]
  rhsContracting := [1]
  lhsNonContracting := [1]
  rhsNonContracting := [2]
  lhsBatch := [0]
  rhsBatch := [0]
  wf := dot_S27x24576x128_S27x128x128_S27x24576x128_2_1_1_2_0_0_wf
def scatter_S65536x128_S27x24576x1_S27x24576x128_2_0_0_2 : ScatterDims S65536x128 S27x24576x1 S27x24576x128 where
  updateWindowDims := [2]
  insertedWindowDims := [0]
  scatterDimsToOperandDims := [0]
  indexVectorDim := 2
  wf := scatter_S65536x128_S27x24576x1_S27x24576x128_2_0_0_2_wf

class Facts : Prop extends Facts₀ where

variable [Facts]
-- ==== Proof.BlockProduct.lean ====
/-
  One grid step of the kernel, read at one element.

  At offset k the body loads a [1, 24576, 128] block of gathered input rows and a [1, 128, 128] block of weights,
  drops the leading unit axis of each, multiplies the two as matrices into a zero accumulator, and stores the
  product back under a leading unit axis. Over the extended reals the element (p, o) of what it stores is the
  plain sum over the 128 input channels c of the first block at (p, c) times the second block at (c, o): the zero
  accumulator adds nothing, and a finite sum of extended reals has no order.
-/
import proofs.«111921_j35802847379859_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.TcCoe Idealize.ShloMosaic.ValueIdx

/-! ## Where the product reads its operands

The product contracts axis 1 of the left matrix with axis 0 of the right one; the left row and the right column
are the output's. -/

/-- The left operand is read in the output's row. -/
theorem lhs_row (i : S24576x128.Idx) (q : dot_S24576x128_S128x128_S24576x128_1_0_0_1_n_n.contr.Idx) :
    (dot_S24576x128_S128x128_S24576x128_1_0_0_1_n_n.lhsIdx i q 0).val = (i 0).val := by
  unfold DotDims.lhsIdx
  rw [dif_neg (show ¬(0 : Fin S24576x128.rank) ∈ dot_S24576x128_S128x128_S24576x128_1_0_0_1_n_n.lhsBatch by decide), dif_pos (show (0 : Fin S24576x128.rank) ∈ dot_S24576x128_S128x128_S24576x128_1_0_0_1_n_n.lhsNonContracting by decide)]
  rfl

/-- … at the contracted channel. -/
theorem lhs_channel (i : S24576x128.Idx) (q : dot_S24576x128_S128x128_S24576x128_1_0_0_1_n_n.contr.Idx) :
    (dot_S24576x128_S128x128_S24576x128_1_0_0_1_n_n.lhsIdx i q 1).val = (q ⟨0, by decide⟩).val :=
  dot_S24576x128_S128x128_S24576x128_1_0_0_1_n_n.lhsIdx_val_of_single rfl i q

/-- The right operand is read at the contracted channel … -/
theorem rhs_channel (i : S24576x128.Idx) (q : dot_S24576x128_S128x128_S24576x128_1_0_0_1_n_n.contr.Idx) :
    (dot_S24576x128_S128x128_S24576x128_1_0_0_1_n_n.rhsIdx i q 0).val = (q ⟨0, by decide⟩).val :=
  dot_S24576x128_S128x128_S24576x128_1_0_0_1_n_n.rhsIdx_val_of_single rfl i q

/-- … in the output's column. -/
theorem rhs_col (i : S24576x128.Idx) (q : dot_S24576x128_S128x128_S24576x128_1_0_0_1_n_n.contr.Idx) :
    (dot_S24576x128_S128x128_S24576x128_1_0_0_1_n_n.rhsIdx i q 1).val = (i 1).val := by
  unfold DotDims.rhsIdx
  rw [dif_neg (show ¬(1 : Fin S128x128.rank) ∈ dot_S24576x128_S128x128_S24576x128_1_0_0_1_n_n.rhsBatch by decide), dif_pos (show (1 : Fin S128x128.rank) ∈ dot_S24576x128_S128x128_S24576x128_1_0_0_1_n_n.rhsNonContracting by decide)]
  rfl

/-! ## The stored block at (0, p, o) -/

/-- What one grid step stores, at row p and output channel o: the sum over the input channels c of the gathered
    block at (p, c) times the weight block at (c, o). -/
theorem stored_apply (g : Vec Ideal S1x24576x128 .bf16) (w : Vec Ideal S1x128x128 .bf16) (p : Fin 24576) (o : Fin 128) :
    k0_pay1 (F := Ideal) g w (ix3 (0 : Fin 1) p o) = ∑ c : Fin 128, g (ix3 (0 : Fin 1) p c) * w (ix3 (0 : Fin 1) c o) := by
  unfold k0_pay1
  rw [shapeCast_ab_1ab_apply]
  simp only [matmul]
  rw [Ideal.matmul_constant_zero_apply, ← Equiv.sum_comp (contrEquiv1 dot_S24576x128_S128x128_S24576x128_1_0_0_1_n_n 128 rfl rfl).symm]
  refine Finset.sum_congr rfl fun c _ => ?_
  have hc := contrEquiv1_symm_val dot_S24576x128_S128x128_S24576x128_1_0_0_1_n_n 128 rfl rfl c
  have el : dot_S24576x128_S128x128_S24576x128_1_0_0_1_n_n.lhsIdx (ix2 p o) ((contrEquiv1 dot_S24576x128_S128x128_S24576x128_1_0_0_1_n_n 128 rfl rfl).symm c) = ix2 p c := funext fun a => Fin.ext (by
    match a with
    | ⟨0, _⟩ => exact lhs_row _ _
    | ⟨1, _⟩ => exact (lhs_channel _ _).trans hc)
  have er : dot_S24576x128_S128x128_S24576x128_1_0_0_1_n_n.rhsIdx (ix2 p o) ((contrEquiv1 dot_S24576x128_S128x128_S24576x128_1_0_0_1_n_n 128 rfl rfl).symm c) = ix2 c o := funext fun a => Fin.ext (by
    match a with
    | ⟨0, _⟩ => exact (rhs_channel _ _).trans hc
    | ⟨1, _⟩ => exact rhs_col _ _)
  rw [el, er, shapeCast_1ab_ab_apply, shapeCast_1ab_ab_apply]

end Cert.KernelIdeal.BlockProduct

end
-- ==== Proof.OffsetProducts.lean ====
/-
  The per-offset products of a sparse convolution, as one function of two arrays.

  For each of the 27 kernel offsets k, each of the 24576 pairs p of that offset and each of the 128 output
  channels o, the product array holds the sum over the 128 input channels c of the gathered feature g (k, p, c)
  times the weight w (k, c, o). Both programs compute this array between the same row gather and the same
  scatter-add; the kernel one offset per grid step, the reference as one batched contraction.
-/
import Idealize.ShloMosaic.PureOps.Ideal
import Idealize.ShloMosaic.Lib.ValueIdx

noncomputable section

namespace SparseConv

open Idealize.ShloMosaic Idealize.ShloMosaic.ValueIdx

/-- The gathered features and the products: offsets × pairs × channels. -/
abbrev SPairs : Shape := ⟨3, ![27, 24576, 128]⟩
/-- The weights: offsets × input channels × output channels. -/
abbrev SWeights : Shape := ⟨3, ![27, 128, 128]⟩

/-- The product array: at (k, p, o) the sum over the input channels c of g (k, p, c) · w (k, c, o). -/
def offsetProducts (g : SPairs.Idx → EReal) (w : SWeights.Idx → EReal) : SPairs.Idx → EReal :=
  fun i => ∑ c : Fin 128, g (ix3 (i 0) (i 1) c) * w (ix3 (i 0) c (i 2))

theorem offsetProducts_apply (g : SPairs.Idx → EReal) (w : SWeights.Idx → EReal) (k : Fin 27) (p : Fin 24576) (o : Fin 128) :
    offsetProducts g w (ix3 k p o) = ∑ c : Fin 128, g (ix3 k p c) * w (ix3 k c o) := rfl

end SparseConv

end
-- ==== Proof.ProductArray.lean ====
/-
  The kernel's product array after all 27 grid steps.

  Step t of the grid works on offset t alone: it fetches block t of the gathered rows and block t of the weights
  (each a whole [1, ·, ·] slab along the offset axis) and writes back block t of the product array. By the
  element formula for one step, what step t writes back is the slab t of ONE function of the two whole arrays:
  at (k, p, o) the sum over the input channels c of g (k, p, c) · w (k, c, o). The 27 slabs tile the product array,
  so after the last step the array is that function everywhere.

  The two arrays the steps read were written before the region: the gathered rows are the input table's rows picked
  by the (wrapped) index array, and both they and the weights were converted to a narrower float format, which
  over the extended reals changes nothing.
-/
import proofs.«111921_j35802847379859_1_alg».proof.Proof.Gen.KernelIdeal.Frame
import proofs.«111921_j35802847379859_1_alg».proof.Proof.BlockProduct
import proofs.«111921_j35802847379859_1_alg».proof.Proof.OffsetProducts
import Idealize.ShloMosaic.Lib.Pipeline.Value
import Idealize.ShloMosaic.Lib.Tactic

noncomputable section

namespace Cert.KernelIdeal.ProductArray

open Cert.KernelIdeal Cert.KernelIdeal.Gen Idealize.ShloMosaic Idealize.ShloMosaic.TcCoe Idealize.SL.Sem Idealize.ShloMosaic.ValueIdx
open Idealize.ShloMosaic.Pipeline (Dat)
open SparseConv

variable (m : (ℓ : Loc nD τ sig) → Buf (Elt Ideal) ℓ) (ρ : Dev nD → PrngReg)

/-- The gathered rows as the grid finds them, as extended reals. -/
abbrev garr (c : Dev nD) : SPairs.Idx → EReal := V m c main_v7
/-- The weights as the grid finds them, as extended reals. -/
abbrev warr (c : Dev nD) : SWeights.Idx → EReal := V m c main_v8

theorem hz : (![0, 0, 0] : Fin 3 → Nat) = fun _ => 0 := funext fun a => by fin_cases a <;> rfl

/-- At every step the three blocks sit at the same offset, and at the start of the other two axes. -/
theorem idx_facts : ∀ t : Fin cfg0.N,
    win0_0.index t (0 : Fin 3) = win0_2.index t (0 : Fin 3) ∧ win0_0.index t (1 : Fin 3) = 0 ∧ win0_0.index t (2 : Fin 3) = 0
  ∧ win0_1.index t (0 : Fin 3) = win0_2.index t (0 : Fin 3) ∧ win0_1.index t (1 : Fin 3) = 0 ∧ win0_1.index t (2 : Fin 3) = 0
  ∧ win0_2.index t (1 : Fin 3) = 0 ∧ win0_2.index t (2 : Fin 3) = 0 ∧ win0_2.index t (0 : Fin 3) < 27 :=
  (by decide +kernel : ∀ t : Fin grid0.N, _)

/-- What step t writes back is slab t of the per-offset products of the two arrays: element (0, p, o) of the stored
    block is the sum over c of the fetched blocks at (0, p, c) and (0, c, o), and those are the arrays' elements at
    the step's offset. -/
theorem flushed_eq (c : Dev nD) (t : Fin cfg0.N) :
    (dats m 0 c).flushed 2 t = ((cfg0.win 2).blk t).view.read (Elt Ideal) (offsetProducts (garr m c) (warr m c)) := by
  show (cfg0.win 2).cut (grid0.coords t) ((dats m 0 c).after 2 t) = _
  rw [after0_2]
  unfold out0_2
  rw [View.canon_unit_zero hz]
  simp only [View.ld_unit_zero (S := S1x24576x128) hz, View.ld_unit_zero (S := S1x128x128) hz]
  obtain ⟨e0, e1, e2, e3, e4, e5, e6, e7, e8⟩ := idx_facts t
  funext j
  obtain ⟨u, p, o, rfl⟩ : ∃ (u : Fin 1) (p : Fin 24576) (o : Fin 128), j = ix3 u p o := ⟨j 0, j 1, j 2, eq_ix3 (n0 := 1) (n1 := 24576) (n2 := 128) j⟩
  obtain rfl : u = 0 := Subsingleton.elim _ _
  show k0_pay1 (F := Ideal) (iblk m c 0 t) (iblk m c 1 t) (ix3 (0 : Fin 1) p o) = offsetProducts (garr m c) (warr m c) (((cfg0.win 2).blk t).view.emb (ix3 (0 : Fin 1) p o))
  refine (BlockProduct.stored_apply (iblk m c 0 t) (iblk m c 1 t) p o).trans ?_
  show _ = ∑ ch : Fin 128, garr m c (ix3 ((((cfg0.win 2).blk t).view.emb (ix3 (0 : Fin 1) p o)) 0) ((((cfg0.win 2).blk t).view.emb (ix3 (0 : Fin 1) p o)) 1) ch) * warr m c (ix3 ((((cfg0.win 2).blk t).view.emb (ix3 (0 : Fin 1) p o)) 0) ch ((((cfg0.win 2).blk t).view.emb (ix3 (0 : Fin 1) p o)) 2))
  refine Finset.sum_congr rfl fun ch _ => ?_
  have hg : ((cfg0.win 0).blk t).view.emb (ix3 (0 : Fin 1) p ch) = ix3 ((((cfg0.win 2).blk t).view.emb (ix3 (0 : Fin 1) p o)) 0) ((((cfg0.win 2).blk t).view.emb (ix3 (0 : Fin 1) p o)) 1) ch := by
    funext a; apply Fin.ext
    match a with
    | ⟨0, _⟩ => show win0_0.index t (0 : Fin 3) * 1 + 1 * 0 = win0_2.index t (0 : Fin 3) * 1 + 1 * 0; omega
    | ⟨1, _⟩ => show win0_0.index t (1 : Fin 3) * 24576 + 1 * p.val = win0_2.index t (1 : Fin 3) * 24576 + 1 * p.val; omega
    | ⟨2, _⟩ => show win0_0.index t (2 : Fin 3) * 128 + 1 * ch.val = ch.val; omega
  have hw : ((cfg0.win 1).blk t).view.emb (ix3 (0 : Fin 1) ch o) = ix3 ((((cfg0.win 2).blk t).view.emb (ix3 (0 : Fin 1) p o)) 0) ch ((((cfg0.win 2).blk t).view.emb (ix3 (0 : Fin 1) p o)) 2) := by
    funext a; apply Fin.ext
    match a with
    | ⟨0, _⟩ => show win0_1.index t (0 : Fin 3) * 1 + 1 * 0 = win0_2.index t (0 : Fin 3) * 1 + 1 * 0; omega
    | ⟨1, _⟩ => show win0_1.index t (1 : Fin 3) * 128 + 1 * ch.val = ch.val; omega
    | ⟨2, _⟩ => show win0_1.index t (2 : Fin 3) * 128 + 1 * o.val = win0_2.index t (2 : Fin 3) * 128 + 1 * o.val; omega
  show garr m c (((cfg0.win 0).blk t).view.emb (ix3 (0 : Fin 1) p ch)) * warr m c (((cfg0.win 1).blk t).view.emb (ix3 (0 : Fin 1) ch o)) = _
  rw [hg, hw]
  rfl

/-- An index of the product array is in step t's block iff each coordinate is in the block's range on its axis. -/
theorem mem_blk (t : Fin cfg0.N) (i : S27x24576x128.Idx) :
    i ∈ ((cfg0.win 2).blk t).view.set ↔ ∀ a : Fin 3, win0_2.index t a * S1x24576x128.size a ≤ (i a).val ∧ (i a).val < win0_2.index t a * S1x24576x128.size a + S1x24576x128.size a := by
  show i ∈ ((View.whole main_v9).slice (win0_2.rect t)).set ↔ _
  rw [View.set_slice_whole, Rect.mem_set_unit]
  exact Iff.rfl

/-- Every offset is some step's. -/
theorem idx_onto : ∀ k : Fin 27, ∃ t : Fin cfg0.N, win0_2.index t = ![k.val, 0, 0] :=
  (by decide +kernel : ∀ k : Fin 27, ∃ t : Fin grid0.N, win0_2.index t = ![k.val, 0, 0])

/-- The slabs tile the product array: the index (k, p, o) lies in the block of the step whose offset is k. -/
theorem covered (i : S27x24576x128.Idx) :
    ∃ t : Fin cfg0.N, (cfg0.win 2).flush t = true ∧ i ∈ ((cfg0.win 2).blk t).view.set := by
  have h0 : (i 0).val < 27 := (i 0).isLt
  have h1 : (i 1).val < 24576 := (i 1).isLt
  have h2 : (i 2).val < 128 := (i 2).isLt
  obtain ⟨t, ht⟩ := idx_onto ⟨(i 0).val, h0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 24576 ≤ (i 1).val ∧ (i 1).val < win0_2.index t (1 : Fin 3) * 24576 + 24576; omega
  | ⟨2, _⟩ => show win0_2.index t (2 : Fin 3) * 128 ≤ (i 2).val ∧ (i 2).val < win0_2.index t (2 : Fin 3) * 128 + 128; omega

/-- After the last step the product array is the per-offset products of the two arrays the steps read. -/
theorem final (c : Dev nD) : (dats m 0 c).arrAt 2 cfg0.N = offsetProducts (garr m c) (warr m c) :=
  (dats m 0 c).arrAt_eq_of_cover 2 (offsetProducts (garr m c) (warr m c)) (fun t _ => flushed_eq m c t) covered

/-- The gathered rows: the input table's rows at the wrapped indices (the change of float format is the identity
    on the extended reals). -/
theorem garr_eq (c : Dev nD) : garr m c = Host.gather gather_S65536x128_S27x24576x1_S27x24576x128_2_0_n_n_0_2_1128 (m ((c : Thread nD τ).loc main_arg0))
    (broadcastInDim S27x24576x1 ![0, 1] bcast_S27x24576_S27x24576x1_0_1 (select (cmpi .slt (m ((c : Thread nD τ).loc main_arg2)) (broadcastInDim S27x24576 ![] bcast_S_S27x24576 (constantI S_ 32 0#32))) (addi (m ((c : Thread nD τ).loc main_arg2)) (broadcastInDim S27x24576 ![] bcast_S_S27x24576 (constantI S_ 32 65536#32))) (m ((c : Thread nD τ).loc main_arg2)))) := by
  show StableHlo.after hostOps0 (fun b => m (c, b)) (Proc.devRef .tc main_v7) = _
  after_results
  rfl

/-- The weights the steps read are the weight argument. -/
theorem warr_eq (c : Dev nD) : warr m c = (m ((c : Thread nD τ).loc main_arg1) : S27x128x128.Idx → EReal) := by
  show StableHlo.after hostOps0 (fun b => m (c, b)) (Proc.devRef .tc main_v8) = _
  after_results
  rfl

end Cert.KernelIdeal.ProductArray

end
-- ==== Proof.KernelResult.lean ====
/-
  The kernel program's result.

  After the grid, the program scatter-adds the rows of the product array into a zero array of the input table's
  shape, row (k, p) of the products going to the row named by the (wrapped) second index array. With the product
  array known as one function of the arguments, the result is that scatter-add of the per-offset products of the
  gathered rows and the weights, and the four arguments are left as they were.
-/
import proofs.«111921_j35802847379859_1_alg».proof.Proof.ProductArray

noncomputable section

namespace Cert.KernelIdeal.KernelResult

open Cert.KernelIdeal Cert.KernelIdeal.Gen Cert.KernelIdeal.ProductArray
open Idealize.ShloMosaic Idealize.ShloMosaic.TcCoe Idealize.SL.Sem Idealize.ShloMosaic.ValueIdx
open Idealize.ShloMosaic.Pipeline (Dat)
open SparseConv

variable (m : (ℓ : Loc nD τ sig) → Buf (Elt Ideal) ℓ) (ρ : Dev nD → PrngReg)

/-- The row indices as the program prepares them: a negative index is moved up by the table's 65536 rows, and a
    trailing unit axis is added. -/
def wrapRows (x : IVec S27x24576 32) : IVec S27x24576x1 32 :=
  broadcastInDim S27x24576x1 ![0, 1] bcast_S27x24576_S27x24576x1_0_1 (select (cmpi .slt x (broadcastInDim S27x24576 ![] bcast_S_S27x24576 (constantI S_ 32 0#32))) (addi x (broadcastInDim S27x24576 ![] bcast_S_S27x24576 (constantI S_ 32 65536#32))) x)

/-- The sparse convolution of the features x0 with the weights x1 along the kernel maps x2 (rows to read) and x3
    (rows to add into): gather, per-offset products, scatter-add onto zeros. -/
def result (x0 : S65536x128.Idx → EReal) (x1 : S27x128x128.Idx → EReal) (x2 x3 : IVec S27x24576 32) : S65536x128.Idx → EReal :=
  Host.scatterAdd (F := Ideal) scatter_S65536x128_S27x24576x1_S27x24576x128_2_0_0_2 (broadcastInDim S65536x128 ![] bcast_S_S65536x128 (constant (F := Ideal) S_ .f32 0x00000000#32)) (wrapRows x3)
    (offsetProducts (Host.gather gather_S65536x128_S27x24576x1_S27x24576x128_2_0_n_n_0_2_1128 x0 (wrapRows x2)) x1)

/-- What the lines after the grid leave in the result buffer: they read the product array the grid left and the
    second index argument, which nothing has written. -/
theorem tail_eq (c : Dev nD) :
    Pipeline.afterTail₀ cfgs (dats m) 0 (V0 m) [hostOps1] c main_v17
      = result (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v17) = _
  after_results
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have h9 : Pipeline.withArrays (cfgs 0).spec c (V0 m c) (fun w => (dats m 0 c).arrAt w (cfgs 0).N) (Proc.devRef .tc main_v9)
      = offsetProducts (garr m c) (warr m c) :=
    (Pipeline.withArrays_arr spec0 launch0.win.arr_inj c _ _ 2).trans (final m c)
  rw [h3, h9, garr_eq, warr_eq]
  rfl

/-- The run: every weakly fair execution terminates with the result buffer at the sparse convolution of the
    arguments, and the arguments unchanged. -/
theorem run : θ_run defs (onTc (τ := τ) (main (F := Ideal))) ⟨m, fun _ => 0, ρ⟩ fun r => ∀ c : Dev nD,
      r.2.mem ((c.tc : Thread nD τ).loc main_v17) = result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelResult

end
-- ==== Proof.RefProduct.lean ====
/-
  The reference program's result.

  The reference gathers the same rows, multiplies them by the weights in ONE batched contraction, and scatter-adds
  the products onto zeros along the same second index array.

  The reference multiplies the gathered rows [27, 24576, 128] by the weights [27, 128, 128] in one contraction
  that keeps the offset axis as a batch axis and sums over the input channels. Read at (k, p, o) over the
  extended reals it is the sum over c of the gathered row (k, p, c) times the weight (k, c, o): the product array
  the kernel fills one offset at a time.
-/
import proofs.«111921_j35802847379859_1_alg».proof.Proof.Gen.ReferenceIdeal.Run
import proofs.«111921_j35802847379859_1_alg».proof.Proof.Gen.ReferenceIdeal.Read
import proofs.«111921_j35802847379859_1_alg».proof.Proof.OffsetProducts

noncomputable section

namespace Cert.ReferenceIdeal.RefProduct

open Cert.ReferenceIdeal Cert.ReferenceIdeal.Gen Cert.ReferenceIdeal.Read
open Idealize.ShloMosaic Idealize.ShloMosaic.TcCoe Idealize.SL.Sem Idealize.ShloMosaic.ValueIdx
open SparseConv

/-- The left factor of term c is the gathered row at the output's offset and pair, channel c. -/
theorem left_index (i : S27x24576x128.Idx) (c : Fin 128) : lidx_main_v7 i c = ix3 (i 0) (i 1) c :=
  funext fun a => Fin.ext (by match a with | ⟨0, _⟩ => rfl | ⟨1, _⟩ => rfl | ⟨2, _⟩ => rfl)

/-- The right factor is the weight at the output's offset, channel c, and the output's channel. -/
theorem right_index (i : S27x24576x128.Idx) (c : Fin 128) : ridx_main_v7 i c = ix3 (i 0) c (i 2) :=
  funext fun a => Fin.ext (by match a with | ⟨0, _⟩ => rfl | ⟨1, _⟩ => rfl | ⟨2, _⟩ => rfl)

/-- The contraction of the gathered rows with the weights is their per-offset products. -/
theorem contraction_eq (x0 : (⟨S65536x128, .f32⟩ : BufTy).Contents (Elt Ideal)) (x1 : (⟨S27x128x128, .f32⟩ : BufTy).Contents (Elt Ideal))
    (x2 : (⟨S27x24576, .i32⟩ : BufTy).Contents (Elt Ideal)) :
    val_main_v7 (F := Ideal) x0 x1 x2 = offsetProducts (val_main_v6 (F := Ideal) x0 x2) x1 := by
  funext i
  rw [val_main_v7_apply]
  simp only [left_index, right_index]
  rfl

variable (m : (ℓ : Loc nD τ sig) → Buf (Elt Ideal) ℓ) (ρ : Dev nD → PrngReg)

/-- The row indices as the program prepares them: a negative index is moved up by the table's 65536 rows, and a
    trailing unit axis is added. -/
def wrapRows (x : IVec S27x24576 32) : IVec S27x24576x1 32 :=
  broadcastInDim S27x24576x1 ![0, 1] bcast_S27x24576_S27x24576x1_0_1 (select (cmpi .slt x (broadcastInDim S27x24576 ![] bcast_S_S27x24576 (constantI S_ 32 0#32))) (addi x (broadcastInDim S27x24576 ![] bcast_S_S27x24576 (constantI S_ 32 65536#32))) x)

/-- The sparse convolution of the features x0 with the weights x1 along the kernel maps x2 (rows to read) and x3
    (rows to add into): gather, per-offset products, scatter-add onto zeros. -/
def result (x0 : S65536x128.Idx → EReal) (x1 : S27x128x128.Idx → EReal) (x2 x3 : IVec S27x24576 32) : S65536x128.Idx → EReal :=
  Host.scatterAdd (F := Ideal) scatter_S65536x128_S27x24576x1_S27x24576x128_2_0_0_2 (broadcastInDim S65536x128 ![] bcast_S_S65536x128 (constant (F := Ideal) S_ .f32 0x00000000#32)) (wrapRows x3)
    (offsetProducts (Host.gather gather_S65536x128_S27x24576x1_S27x24576x128_2_0_n_n_0_2_1128 x0 (wrapRows x2)) x1)

/-- The run: every weakly fair execution terminates with the result buffer at the sparse convolution of the
    arguments, and the arguments unchanged. -/
theorem run : θ_run defs (onTc (τ := τ) (main (F := Ideal))) ⟨m, fun _ => 0, ρ⟩ fun r => ∀ c : Dev nD,
      r.2.mem ((c.tc : Thread nD τ).loc main_v15) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      rw [val_main_v15_eq]
      unfold val_main_v15
      rw [contraction_eq]
      rfl), (h c).2⟩)
    (Cert.ReferenceIdeal.Value.run (F := Ideal) m ρ)

end Cert.ReferenceIdeal.RefProduct

end
-- ==== Proof.lean ====
/-
  A sparse 3×3×3 convolution, a kernel against its reference, over the extended reals.

  Both programs read, for each of 27 kernel offsets, 24576 rows of the 65536 × 128 feature table (the rows a first
  index array names, negative indices counted from the end), multiply each offset's 24576 × 128 slab of rows by that
  offset's 128 × 128 weight matrix, and add the product rows into a zero 65536 × 128 array at the rows a second
  index array names. The gather and the scatter-add are the same operations in both. They differ in the products:
  the kernel converts both factors to a narrower float format and multiplies one offset per grid step into a zero
  accumulator; the reference multiplies all offsets in one batched contraction. Over the extended reals a change
  of format is the identity and both products are, at (k, p, o), the sum over the input channels c of
  row (k, p, c) · weight (k, c, o) — so the scatter-add receives the same array in both programs, and the results
  are equal. No law that fails at the infinities is used, so finiteness of the inputs is never opened.

  The kernel's grid is run by the imported frame; the reference's run and the reading of its contraction at an
  index are imported too. Written here: the stored block at an element, the product array after the grid, the
  two results as one function.
-/
import proofs.«111921_j35802847379859_1_alg».proof.Defs
import proofs.«111921_j35802847379859_1_alg».proof.Proof.Gen.Kernel
import proofs.«111921_j35802847379859_1_alg».proof.Proof.Gen.Kernel.Skeleton
import proofs.«111921_j35802847379859_1_alg».proof.Proof.Gen.Kernel.Launch
import proofs.«111921_j35802847379859_1_alg».proof.Proof.Gen.Kernel.Points
import proofs.«111921_j35802847379859_1_alg».proof.Proof.Gen.Kernel.Frame
import proofs.«111921_j35802847379859_1_alg».proof.Proof.Gen.KernelIdeal
import proofs.«111921_j35802847379859_1_alg».proof.Proof.Gen.KernelIdeal.Skeleton
import proofs.«111921_j35802847379859_1_alg».proof.Proof.Gen.KernelIdeal.Launch
import proofs.«111921_j35802847379859_1_alg».proof.Proof.Gen.KernelIdeal.Points
import proofs.«111921_j35802847379859_1_alg».proof.Proof.Gen.KernelIdeal.Frame
import proofs.«111921_j35802847379859_1_alg».proof.Proof.Gen.ReferenceIdeal
import proofs.«111921_j35802847379859_1_alg».proof.Proof.Gen.ReferenceIdeal.Run
import proofs.«111921_j35802847379859_1_alg».proof.Proof.Gen.Pre_finite_inputs
import proofs.«111921_j35802847379859_1_alg».proof.Proof.KernelResult
import proofs.«111921_j35802847379859_1_alg».proof.Proof.RefProduct
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From arguments that agree, both programs end with the sparse convolution of the arguments in their result
    buffer: the same gather, the same per-offset products, the same scatter-add. -/
theorem algebraic : Cert.algebraic_KernelIdeal_ReferenceIdeal := by
  intro m ρ m' ρ' _ hagree
  refine ⟨fun c => Cert.KernelIdeal.KernelResult.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelResult.run m ρ, ?_⟩
  refine (θ_run Cert.ReferenceIdeal.defs _ _).mono (fun _ h c => ⟨(h c).1.trans ?_, (h c).2⟩)
    (Cert.ReferenceIdeal.RefProduct.run m' ρ')
  obtain ⟨a0, a1, a2, a3⟩ := hagree c
  rw [a0, a1, a2, a3]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
